-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S512x128 : Shape := ⟨2, ![512, 128]⟩
abbrev S512 : Shape := ⟨1, ![512]⟩
abbrev S128 : Shape := ⟨1, ![128]⟩
abbrev S2x128 : Shape := ⟨2, ![2, 128]⟩
abbrev S2 : Shape := ⟨1, ![2]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2x128 .f32) (main_arg8 : FVec F S2 .f32) (main_v33 : IVec S_ 1) : IVec S_ 1 :=
  let main_v34 : FVec F S2x128 .f32 := Host.absf main_arg7
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S512 .f32) (main_arg5 : FVec F S512 .f32) (main_arg6 : FVec F S128 .f32) (main_arg7 : FVec F S2x128 .f32) (main_arg8 : FVec F S2 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S128x128 .f32) (main_arg2 : FVec F S512x128 .f32) (main_arg3 : FVec F S512x128 .f32) (main_arg4 : FVec F S512 .f32) (main_arg5 : FVec F S512 .f32) (main_arg6 : FVec F S128 .f32) (main_arg7 : FVec F S2x128 .f32) (main_arg8 : FVec F S2 .f32) (main_arg9 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S128x128 : Shape := ⟨2, ![128, 128]⟩
abbrev S512x128 : Shape := ⟨2, ![512, 128]⟩
abbrev S512 : Shape := ⟨1, ![512]⟩
abbrev S128 : Shape := ⟨1, ![128]⟩
abbrev S2x128 : Shape := ⟨2, ![2, 128]⟩
abbrev S2 : Shape := ⟨1, ![2]⟩
abbrev S2x600000 : Shape := ⟨2, ![2, 600000]⟩
abbrev S128x512 : Shape := ⟨2, ![128, 512]⟩
abbrev S1x512 : Shape := ⟨2, ![1, 512]⟩
abbrev S1000x128 : Shape := ⟨2, ![1000, 128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S50000x2 : Shape := ⟨2, ![50000, 2]⟩
abbrev S1000x2 : Shape := ⟨2, ![1000, 2]⟩
abbrev S1x128 : Shape := ⟨2, ![1, 128]⟩
abbrev S1x2 : Shape := ⟨2, ![1, 2]⟩

abbrev nBuf : Space → Nat
  | .hbm => 72
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S512x128, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S128, .f32⟩
  | .hbm, ⟨7, _⟩ => ⟨S2x128, .f32⟩
  | .hbm, ⟨8, _⟩ => ⟨S2, .f32⟩
  | .hbm, ⟨9, _⟩ => ⟨S2x600000, .i32⟩
  | .hbm, ⟨10, _⟩ => ⟨S128x128, .f32⟩
  | .hbm, ⟨11, _⟩ => ⟨S50000x128, .f32⟩
  | .hbm, ⟨12, _⟩ => ⟨S50000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S1x600000, .i32⟩
  | .hbm, ⟨17, _⟩ => ⟨S600000, .i32⟩
  | .hbm, ⟨18, _⟩ => ⟨S650000, .i32⟩
  | .hbm, ⟨19, _⟩ => ⟨S_, .f32⟩
  | .hbm, ⟨20, _⟩ => ⟨S650000, .f32⟩
  | .hbm, ⟨21, _⟩ => ⟨S_, .f32⟩
  | .hbm, ⟨22, _⟩ => ⟨S50000, .f32⟩
  | .hbm, ⟨23, _⟩ => ⟨S650000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S_, .i32⟩
  | .hbm, ⟨46, _⟩ => ⟨S650000, .i32⟩
  | .hbm, ⟨47, _⟩ => ⟨S650000, .i1⟩
  | .hbm, ⟨48, _⟩ => ⟨S_, .i32⟩
  | .hbm, ⟨49, _⟩ => ⟨S650000, .i32⟩
  | .hbm, ⟨50, _⟩ => ⟨S650000, .i32⟩
  | .hbm, ⟨51, _⟩ => ⟨S650000, .i32⟩
  | .hbm, ⟨52, _⟩ => ⟨S650000x1, .i32⟩
  | .hbm, ⟨53, _⟩ => ⟨S650000, .f32⟩
  | .hbm, ⟨54, _⟩ => ⟨S650000, .f32⟩
  | .hbm, ⟨55, _⟩ => ⟨S650000x1, .f32⟩
  | .hbm, ⟨56, _⟩ => ⟨S_, .i32⟩
  | .hbm, ⟨57, _⟩ => ⟨S650000, .i32⟩
  | .hbm, ⟨58, _⟩ => ⟨S650000, .i1⟩
  | .hbm, ⟨59, _⟩ => ⟨S_, .i32⟩
  | .hbm, ⟨60, _⟩ => ⟨S650000, .i32⟩
  | .hbm, ⟨61, _⟩ => ⟨S650000, .i32⟩
  | .hbm, ⟨62, _⟩ => ⟨S650000, .i32⟩
  | .hbm, ⟨63, _⟩ => ⟨S650000x1, .i32⟩
  | .hbm, ⟨64, _⟩ => ⟨S650000x128, .f32⟩
  | .hbm, ⟨65, _⟩ => ⟨S650000x128, .f32⟩
  | .hbm, ⟨66, _⟩ => ⟨S650000x128, .f32⟩
  | .hbm, ⟨67, _⟩ => ⟨S_, .f32⟩
  | .hbm, ⟨68, _⟩ => ⟨S50000x128, .f32⟩
  | .hbm, ⟨69, _⟩ => ⟨S650000x1, .i32⟩
  | .hbm, ⟨70, _⟩ => ⟨S50000x128, .f32⟩
  | .hbm, ⟨71, _⟩ => ⟨S50000x2, .f32⟩
  | .local _ .vmem, ⟨0, _⟩ => ⟨S128x128, .f32⟩
  | .local _ .vmem, ⟨1, _⟩ => ⟨S512x128, .f32⟩
  | .local _ .vmem, ⟨2, _⟩ => ⟨S512, .f32⟩
  | .local _ .vmem, ⟨3, _⟩ => ⟨S512, .f32⟩
  | .local _ .vmem, ⟨4, _⟩ => ⟨S128x128, .f32⟩
  | .local _ .vmem, ⟨5, _⟩ => ⟨S1000x128, .f32⟩
  | .local _ .vmem, ⟨6, _⟩ => ⟨S1000x128, .f32⟩
  | .local _ .vmem, ⟨7, _⟩ => ⟨S128x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S128, .f32⟩
  | .local _ .vmem, ⟨13, _⟩ => ⟨S2x128, .f32⟩
  | .local _ .vmem, ⟨14, _⟩ => ⟨S2, .f32⟩
  | .local _ .vmem, ⟨15, _⟩ => ⟨S1000x2, .f32⟩
  | .local _ .vmem, ⟨16, _⟩ => ⟨S1000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg4_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem4_1 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S128x128_S128x128_0_0 : ∀ a, (![0, 0] : Fin 2 → Nat) a + S128x128.size a ≤ S128x128.size a
  h_S128x128 : 0 < S128x128.numel
  inb_S512x128_S512x128_0_0 : ∀ a, (![0, 0] : Fin 2 → Nat) a + S512x128.size a ≤ S512x128.size a
  h_S512x128 : 0 < S512x128.numel
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  slices_S128x512_o0_0_S128x128 : S128x512.Slices ![0, 0] S128x128
  slices_S128x512_o0_128_S128x128 : S128x512.Slices ![0, 128] S128x128
  slices_S128x512_o0_256_S128x128 : S128x512.Slices ![0, 256] S128x128
  slices_S128x512_o0_384_S128x128 : S128x512.Slices ![0, 384] S128x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  shapeCasts_S128x128_S128x128 : S128x128.ShapeCasts S128x128
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S1000x128_S1000x128 : S1000x128.ShapeCasts S1000x128
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  inb_S2x128_S2x128_0_0 : ∀ a, (![0, 0] : Fin 2 → Nat) a + S2x128.size a ≤ S2x128.size a
  h_S2x128 : 0 < S2x128.numel
  inb_S2_S2_0 : ∀ a, (![0] : Fin 1 → Nat) a + S2.size a ≤ S2.size a
  h_S2 : 0 < S2.numel
  shapeCasts_S2_S1x2 : S2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  dot_S128x128_S512x128_S128x512_1_1_0_0_n_n_wf : DotDims.WF S128x128 S512x128 S128x512 [1] [1] [0] [0] [] []
  dot_S1000x128_S128x128_S1000x128_1_0_0_1_n_n_wf : DotDims.WF S1000x128 S128x128 S1000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S1000x128_S2x128_S1000x2_1_1_0_0_n_n_wf : DotDims.WF S1000x128 S2x128 S1000x2 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x128.size a
  hwx0_0 : ∀ i : grid0.Coords, EltTy.bits .f32 = 32 ∨ (Rect.block (s := S128x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S50000x128.size a
  hwx1_2 : ∀ i : grid1.Coords, EltTy.bits .f32 = 32 ∨ (Rect.block (s := S50000x128) S1000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x128.size a ≤ S2x128.size a
  hwx2_2 : ∀ i : grid2.Coords, EltTy.bits .f32 = 32 ∨ (Rect.block (s := S2x128) S2x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2.size a ≤ S2.size a
  hwx2_3 : ∀ i : grid2.Coords, EltTy.bits .f32 = 32 ∨ (Rect.block (s := S2) S2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x2.size a ≤ S50000x2.size a
  hwx2_4 : ∀ i : grid2.Coords, EltTy.bits .f32 = 32 ∨ (Rect.block (s := S50000x2) S1000x2.size (cc2_transform_4 i) (hinb2_4 i)).WholeWords (EltTy.packing .f32)

variable [Facts₀]

def dot_S128x128_S512x128_S128x512_1_1_0_0_n_n : DotDims S128x128 S512x128 S128x512 where
  lhsContracting := [1]
  rhsContracting := [1]
  lhsNonContracting := [0]
  rhsNonContracting := [0]
  lhsBatch := []
  rhsBatch := []
  wf := dot_S128x128_S512x128_S128x512_1_1_0_0_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S1000x128_S2x128_S1000x2_1_1_0_0_n_n : DotDims S1000x128 S2x128 S1000x2 where
  lhsContracting := [1]
  rhsContracting := [1]
  lhsNonContracting := [0]
  rhsNonContracting := [0]
  lhsBatch := []
  rhsBatch := []
  wf := dot_S1000x128_S2x128_S1000x2_1_1_0_0_n_n_wf

abbrev win0_0 : Pipeline.Window sig grid0 :=
  Pipeline.Window.ofSpec (Memref.whole main_arg1) S128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S2x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S512x128 : Shape := ⟨2, ![512, 128]⟩
abbrev S512 : Shape := ⟨1, ![512]⟩
abbrev S128 : Shape := ⟨1, ![128]⟩
abbrev S2x128 : Shape := ⟨2, ![2, 128]⟩
abbrev S2 : Shape := ⟨1, ![2]⟩
abbrev S2x600000 : Shape := ⟨2, ![2, 600000]⟩
abbrev S128x512 : Shape := ⟨2, ![128, 512]⟩
abbrev S1x512 : Shape := ⟨2, ![1, 512]⟩
abbrev S_ : Shape := ⟨0, ![]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S650000x1 : Shape := ⟨2, ![650000, 1]⟩
abbrev S650000x128 : Shape := ⟨2, ![650000, 128]⟩
abbrev S1x128 : Shape := ⟨2, ![1, 128]⟩
abbrev S128x2 : Shape := ⟨2, ![128, 2]⟩
abbrev S50000x2 : Shape := ⟨2, ![50000, 2]⟩
abbrev S1x2 : Shape := ⟨2, ![1, 2]⟩

abbrev nBuf : Space → Nat
  | .hbm => 113
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S512x128, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S128, .f32⟩
  | .hbm, ⟨7, _⟩ => ⟨S2x128, .f32⟩
  | .hbm, ⟨8, _⟩ => ⟨S2, .f32⟩
  | .hbm, ⟨9, _⟩ => ⟨S2x600000, .i32⟩
  | .hbm, ⟨10, _⟩ => ⟨S128x512, .f32⟩
  | .hbm, ⟨11, _⟩ => ⟨S128x512, .f32⟩
  | .hbm, ⟨12, _⟩ => ⟨S1x512, .f32⟩
  | .hbm, ⟨13, _⟩ => ⟨S128x512, .f32⟩
  | .hbm, ⟨14, _⟩ => ⟨S128x512, .f32⟩
  | .hbm, ⟨15, _⟩ => ⟨S1x512, .f32⟩
  | .hbm, ⟨16, _⟩ => ⟨S128x512, .f32⟩
  | .hbm, ⟨17, _⟩ => ⟨S128x512, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S_, .f32⟩
  | .hbm, ⟨35, _⟩ => ⟨S128x128, .f32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S50000, .i32⟩
  | .hbm, ⟨43, _⟩ => ⟨S1x600000, .i32⟩
  | .hbm, ⟨44, _⟩ => ⟨S600000, .i32⟩
  | .hbm, ⟨45, _⟩ => ⟨S650000, .i32⟩
  | .hbm, ⟨46, _⟩ => ⟨S1x600000, .i32⟩
  | .hbm, ⟨47, _⟩ => ⟨S600000, .i32⟩
  | .hbm, ⟨48, _⟩ => ⟨S650000, .i32⟩
  | .hbm, ⟨49, _⟩ => ⟨S_, .f32⟩
  | .hbm, ⟨50, _⟩ => ⟨S650000, .f32⟩
  | .hbm, ⟨51, _⟩ => ⟨S_, .f32⟩
  | .hbm, ⟨52, _⟩ => ⟨S50000, .f32⟩
  | .hbm, ⟨53, _⟩ => ⟨S650000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .i1⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000, .f32⟩
  | .hbm, ⟨62, _⟩ => ⟨S_, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S_, .i32⟩
  | .hbm, ⟨67, _⟩ => ⟨S650000, .i32⟩
  | .hbm, ⟨68, _⟩ => ⟨S650000, .i1⟩
  | .hbm, ⟨69, _⟩ => ⟨S_, .i32⟩
  | .hbm, ⟨70, _⟩ => ⟨S650000, .i32⟩
  | .hbm, ⟨71, _⟩ => ⟨S650000, .i32⟩
  | .hbm, ⟨72, _⟩ => ⟨S650000, .i32⟩
  | .hbm, ⟨73, _⟩ => ⟨S650000x1, .i32⟩
  | .hbm, ⟨74, _⟩ => ⟨S650000, .f32⟩
  | .hbm, ⟨75, _⟩ => ⟨S_, .i32⟩
  | .hbm, ⟨76, _⟩ => ⟨S650000, .i32⟩
  | .hbm, ⟨77, _⟩ => ⟨S650000, .i1⟩
  | .hbm, ⟨78, _⟩ => ⟨S_, .i32⟩
  | .hbm, ⟨79, _⟩ => ⟨S650000, .i32⟩
  | .hbm, ⟨80, _⟩ => ⟨S650000, .i32⟩
  | .hbm, ⟨81, _⟩ => ⟨S650000, .i32⟩
  | .hbm, ⟨82, _⟩ => ⟨S650000x1, .i32⟩
  | .hbm, ⟨83, _⟩ => ⟨S650000, .f32⟩
  | .hbm, ⟨84, _⟩ => ⟨S650000, .f32⟩
  | .hbm, ⟨85, _⟩ => ⟨S50000x128, .f32⟩
  | .hbm, ⟨86, _⟩ => ⟨S650000x1, .f32⟩
  | .hbm, ⟨87, _⟩ => ⟨S_, .i32⟩
  | .hbm, ⟨88, _⟩ => ⟨S650000, .i32⟩
  | .hbm, ⟨89, _⟩ => ⟨S650000, .i1⟩
  | .hbm, ⟨90, _⟩ => ⟨S_, .i32⟩
  | .hbm, ⟨91, _⟩ => ⟨S650000, .i32⟩
  | .hbm, ⟨92, _⟩ => ⟨S650000, .i32⟩
  | .hbm, ⟨93, _⟩ => ⟨S650000, .i32⟩
  | .hbm, ⟨94, _⟩ => ⟨S650000x1, .i32⟩
  | .hbm, ⟨95, _⟩ => ⟨S650000x128, .f32⟩
  | .hbm, ⟨96, _⟩ => ⟨S650000x128, .f32⟩
  | .hbm, ⟨97, _⟩ => ⟨S650000x128, .f32⟩
  | .hbm, ⟨98, _⟩ => ⟨S_, .f32⟩
  | .hbm, ⟨99, _⟩ => ⟨S50000x128, .f32⟩
  | .hbm, ⟨100, _⟩ => ⟨S650000x1, .i32⟩
  | .hbm, ⟨101, _⟩ => ⟨S50000x128, .f32⟩
  | .hbm, ⟨102, _⟩ => ⟨S1x128, .f32⟩
  | .hbm, ⟨103, _⟩ => ⟨S50000x128, .f32⟩
  | .hbm, ⟨104, _⟩ => ⟨S50000x128, .f32⟩
  | .hbm, ⟨105, _⟩ => ⟨S_, .f32⟩
  | .hbm, ⟨106, _⟩ => ⟨S50000x128, .f32⟩
  | .hbm, ⟨107, _⟩ => ⟨S50000x128, .f32⟩
  | .hbm, ⟨108, _⟩ => ⟨S128x2, .f32⟩
  | .hbm, ⟨109, _⟩ => ⟨S50000x2, .f32⟩
  | .hbm, ⟨110, _⟩ => ⟨S1x2, .f32⟩
  | .hbm, ⟨111, _⟩ => ⟨S50000x2, .f32⟩
  | .hbm, ⟨112, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_call0_v0 : Ref sig .tc := ⟨.hbm, 63, rfl⟩
abbrev main_call0_v1 : Ref sig .tc := ⟨.hbm, 64, rfl⟩
abbrev main_v44 : Ref sig .tc := ⟨.hbm, 65, rfl⟩
abbrev main_c : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_13 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_call1_cst : Ref sig .tc := ⟨.hbm, 105, rfl⟩
abbrev main_call1_v0 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩

abbrev nD : Nat := 1
abbrev τ : Topo := Topo.v7x

variable {F : FTy → Type} [FloatOps F]

class Facts₀ : Prop where
  transposes_S512x128_S128x512_1_0 : S512x128.Transposes [1, 0] S128x512
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  slices_S128x512_S128x128_0_0 : S128x512.Slices ![0, 0] S128x128
  slices_S128x512_S128x128_0_128 : S128x512.Slices ![0, 128] S128x128
  slices_S128x512_S128x128_0_256 : S128x512.Slices ![0, 256] S128x128
  slices_S128x512_S128x128_0_384 : S128x512.Slices ![0, 384] S128x128
  bcast_S_S128x128 : S_.BroadcastsInDim S128x128 (![] : Fin 0 → Fin S128x128.rank)
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S2x128_S128x2_1_0 : S2x128.Transposes [1, 0] S128x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S128x128_S128x512_S128x512_1_0_0_1_n_n_wf : DotDims.WF S128x128 S128x512 S128x512 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x2_S50000x2_1_0_0_1_n_n_wf : DotDims.WF S50000x128 S128x2 S50000x2 [1] [0] [0] [1] [] []

variable [Facts₀]

def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.RefShape.lean ====
/-
  The reference program read as three stages: the features times a weight, the aggregation of the scaled
  neighbour rows at their target nodes, and the head (bias, rectifier, class scores). The reference's result
  is the head of the aggregation of the product with the evolved weight.
-/
import proofs.«134047_j48996986912815_1_alg».proof.Proof.RefRead

noncomputable section

namespace Cert.RefShape

open Cert.ReferenceIdeal Cert.ReferenceIdeal.Gen Cert.ReferenceIdeal.ReadP Idealize.ShloMosaic Idealize.ShloMosaic.TcCoe

variable {F : FTy → Type} [FloatOps F]

/-- The product of the node features with a 128 × 128 weight: row `n`, column `f` is the sum over `k` of
    `x[n, k] · w[k, f]`. -/
def xw (x0 : (⟨S50000x128, .f32⟩ : BufTy).Contents (Elt F)) (w : (⟨S128x128, .f32⟩ : BufTy).Contents (Elt F)) :
    (⟨S50000x128, .f32⟩ : BufTy).Contents (Elt F) :=
  Host.dotGeneral dot_S50000x128_S128x128_S50000x128_1_0_0_1_n_n none x0 w

/-- The normalised aggregation over the edges and the self loops: every edge `e` adds the row of its source
    node, scaled by the two endpoint degrees' inverse square roots, to the row of its target node. It is one
    function of the transformed features and of the edge list, the same on both sides. -/
def agg (y : (⟨S50000x128, .f32⟩ : BufTy).Contents (Elt F)) (x9 : (⟨S2x600000, .i32⟩ : BufTy).Contents (Elt F)) :
    (⟨S50000x128, .f32⟩ : BufTy).Contents (Elt F) :=
  Host.scatterAdd scatter_S50000x128_S650000x1_S650000x128_1_0_0_1 (val_main_v71 (F := F)) (val_main_v72 (F := F) x9)
    (mulf (val_main_v69 (F := F) x9)
      (Host.gather gather_S50000x128_S650000x1_S650000x128_1_0_n_n_0_1_1128 y (val_main_v67 (F := F) x9)))

/-- The head: add the bias along the rows, clamp at zero from below, multiply by the transposed classifier
    weight and add the classifier bias. -/
def head (h : (⟨S50000x128, .f32⟩ : BufTy).Contents (Elt F)) (x6 : (⟨S128, .f32⟩ : BufTy).Contents (Elt F))
    (x7 : (⟨S2x128, .f32⟩ : BufTy).Contents (Elt F)) (x8 : (⟨S2, .f32⟩ : BufTy).Contents (Elt F)) :
    (⟨S50000x2, .f32⟩ : BufTy).Contents (Elt F) :=
  addf (Host.dotGeneral dot_S50000x128_S128x2_S50000x2_1_0_0_1_n_n none
      (maximumf (addf h (val_main_v75 (F := F) x6)) (val_main_call1_v0 (F := F))) (val_main_v78 (F := F) x7))
    (val_main_v81 (F := F) x8)

/-- The reference's result is the head of the aggregation of the features times the evolved weight. -/
theorem ref_eq (x0 : (⟨S50000x128, .f32⟩ : BufTy).Contents (Elt F)) (x1 : (⟨S128x128, .f32⟩ : BufTy).Contents (Elt F))
    (x2 : (⟨S512x128, .f32⟩ : BufTy).Contents (Elt F)) (x4 x5 : (⟨S512, .f32⟩ : BufTy).Contents (Elt F))
    (x6 : (⟨S128, .f32⟩ : BufTy).Contents (Elt F)) (x7 : (⟨S2x128, .f32⟩ : BufTy).Contents (Elt F))
    (x8 : (⟨S2, .f32⟩ : BufTy).Contents (Elt F)) (x9 : (⟨S2x600000, .i32⟩ : BufTy).Contents (Elt F)) :
    val_main_v82 (F := F) x0 x1 x2 x4 x5 x6 x7 x8 x9
      = head (agg (xw x0 (val_main_v27 (F := F) x1 x2 x4 x5)) x9) x6 x7 x8 := by
  unfold val_main_v82 val_main_v79 val_main_v77 val_main_v76 val_main_v73 val_main_v70 val_main_v68 val_main_v60 head agg xw
  rfl

end Cert.RefShape

end
-- ==== Proof.HostChain.lean ====
/-
  The host operations between the second and the third kernel region, read back: from the transformed features and
  the edge list they build the source and target lists with the self loops appended, the in-degree of every node,
  its inverse square root where the degree is positive, the per-edge scale, and the scaled source rows summed at
  their targets. Stretch by stretch each buffer is the matching stage of the reference, a function of the edge
  list alone, and the last buffer is the reference's aggregation of whatever array the second region left.
-/
import proofs.«134047_j48996986912815_1_alg».proof.Proof.RefShape
import proofs.«134047_j48996986912815_1_alg».proof.Proof.Gen.KernelIdeal.Launch

set_option maxRecDepth 16384

noncomputable section

namespace Cert.HostChain

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F] (W : Valuation τ sig (Elt F))

/-! ## The first stretch: the lists, the degree and its inverse square root -/

/-- The source list: the first row of the edge list followed by 0 … 49999. -/
theorem sources : StableHlo.after (hostOps2 (F := F)) W (Proc.devRef .tc main_v5)
    = val_main_v31 (F := F) (W (Proc.devRef .tc main_arg9)) := by
  after_results
  rfl

/-- The target list: the second row of the edge list followed by 0 … 49999. -/
theorem targets : StableHlo.after (hostOps2 (F := F)) W (Proc.devRef .tc main_v8)
    = val_main_v34 (F := F) (W (Proc.devRef .tc main_arg9)) := by
  after_results
  rfl

/-- Where the in-degree (the count of edges and self loops that end at a node) is positive. -/
theorem positive : StableHlo.after (hostOps2 (F := F)) W (Proc.devRef .tc main_v14)
    = val_main_v40 (F := F) (W (Proc.devRef .tc main_arg9)) := by
  after_results
  rfl

/-- The inverse square root of the in-degree clamped at one from below. -/
theorem invSqrt : StableHlo.after (hostOps2 (F := F)) W (Proc.devRef .tc main_v17)
    = val_main_v43 (F := F) (W (Proc.devRef .tc main_arg9)) := by
  after_results
  rfl

/-- The zero that stands where the degree is not positive. -/
theorem zeroScalar : StableHlo.after (hostOps2 (F := F)) W (Proc.devRef .tc main_cst_3) = val_main_cst_7 (F := F) := by
  after_results
  rfl

/-- The first stretch does not write the transformed features. -/
theorem features_kept : StableHlo.after (hostOps2 (F := F)) W (Proc.devRef .tc main_v1) = W (Proc.devRef .tc main_v1) := by
  after_results

/-! ## The second stretch: the selection -/

/-- The normalising factor of a node: the inverse square root where the degree is positive, zero elsewhere. -/
theorem factor : StableHlo.after (hostOps2_1 (F := F)) W (Proc.devRef .tc main_v18)
    = select (W (Proc.devRef .tc main_v14)) (W (Proc.devRef .tc main_v17))
        (broadcastInDim S50000 ![] bcast_S_S50000 (id (W (Proc.devRef .tc main_cst_3)))) := by
  after_results_simp
  rfl

theorem sources_kept1 : StableHlo.after (hostOps2_1 (F := F)) W (Proc.devRef .tc main_v5) = W (Proc.devRef .tc main_v5) := by
  after_results_simp
theorem targets_kept1 : StableHlo.after (hostOps2_1 (F := F)) W (Proc.devRef .tc main_v8) = W (Proc.devRef .tc main_v8) := by
  after_results_simp
theorem features_kept1 : StableHlo.after (hostOps2_1 (F := F)) W (Proc.devRef .tc main_v1) = W (Proc.devRef .tc main_v1) := by
  after_results_simp

/-! ## The third stretch: the scale of every edge, the scaled source rows, their sum at the targets -/

/-- From the lists and the factor as the reference's stages of the edge list `e`, the third stretch leaves the
    reference's aggregation of the transformed features: every operation of it is the reference's, on the same operands. -/
theorem aggregate (e : (⟨Cert.ReferenceIdeal.S2x600000, .i32⟩ : BufTy).Contents (Elt F))
    (hs : W (Proc.devRef .tc main_v5) = val_main_v31 (F := F) e)
    (ht : W (Proc.devRef .tc main_v8) = val_main_v34 (F := F) e)
    (hf : W (Proc.devRef .tc main_v18) = val_main_v44 (F := F) e) :
    StableHlo.after (hostOps2_2 (F := F)) W (Proc.devRef .tc main_v46)
      = Cert.RefShape.agg (F := F) (W (Proc.devRef .tc main_v1)) e := by
  after_results_simp
  rw [hs, ht, hf]
  rfl

end Cert.HostChain

end
-- ==== Proof.KernelValue.lean ====
/-
  The kernel program's result array as one function of the argument arrays. The final state holds, at the result
  array, what the third region's write-backs leave; that region entered from the arrays the host operations left,
  these from what the second region left, and so on back to the launch. Given what each region leaves as a function
  of its entry arrays (the three hypotheses of this module's section: the evolved weight, the features times a
  weight, the head), the walk back ends at the reference's own composition:
  head (aggregation (features × evolved weight)).
-/
import proofs.«134047_j48996986912815_1_alg».proof.Proof.KernelRun
import proofs.«134047_j48996986912815_1_alg».proof.Proof.HostChain

set_option maxRecDepth 16384

noncomputable section

namespace Cert.KernelValue

open Cert.KernelIdeal Cert.KernelIdeal.Gen
open Idealize.ShloMosaic Idealize.ShloMosaic.TcCoe Idealize.SL.Sem
open Cert.ReferenceIdeal.ReadP Cert.RefShape

variable (m : (ℓ : Loc nD τ sig) → Buf (Elt Ideal) ℓ) (ρ : Dev nD → PrngReg)

-- What the first region leaves: the evolved weight of its entry arrays.
variable (hE : ∀ (V : (c : Dev nD) → (b : Ref sig .tc) → Buf (Elt Ideal) ((c : Thread nD τ).loc b)) (c : Dev nD),
    (dat0 (F := Ideal) V c).arrAt 4 cfg0.N
      = val_main_v27 (F := Ideal) (V c main_arg1) (V c main_arg2) (V c main_arg4) (V c main_arg5))
-- What the second region leaves: its features array times its weight array.
variable (hT : ∀ (V : (c : Dev nD) → (b : Ref sig .tc) → Buf (Elt Ideal) ((c : Thread nD τ).loc b)) (c : Dev nD),
    (dat1 (F := Ideal) V c).arrAt 2 cfg1.N = xw (F := Ideal) (V c main_arg0) (V c main_v0))
-- What the third region leaves: the head of its four entry arrays.
variable (hC : ∀ (V : (c : Dev nD) → (b : Ref sig .tc) → Buf (Elt Ideal) ((c : Thread nD τ).loc b)) (c : Dev nD),
    (dat2 (F := Ideal) V c).arrAt 4 cfg2.N
      = head (F := Ideal) (V c main_v46) (V c main_arg6) (V c main_arg7) (V c main_arg8))

/-! ## Before the host operations -/

/-- The edge list is nobody's output: after two regions it is as launched. -/
theorem edges_kept (c : Dev nD) :
    W2 m ρ c (Proc.devRef .tc main_arg9) = m ((c : Thread nD τ).loc main_arg9) :=
  (W2_of_ne m ρ c main_arg9 (by decide)).trans ((W1_of_ne m ρ c main_arg9 (by decide)).trans rfl)

/-- The second region finds the features as launched. -/
theorem features_kept (c : Dev nD) : V1 m ρ c main_arg0 = m ((c : Thread nD τ).loc main_arg0) :=
  (W1_of_ne m ρ c main_arg0 (by decide)).trans rfl

include hE in
/-- The second region finds, as its weight, the evolved weight of the launched arrays. -/
theorem weight_evolved (c : Dev nD) :
    V1 m ρ c main_v0 = val_main_v27 (F := Ideal) (m ((c : Thread nD τ).loc main_arg1)) (m ((c : Thread nD τ).loc main_arg2))
      (m ((c : Thread nD τ).loc main_arg4)) (m ((c : Thread nD τ).loc main_arg5)) :=
  (W1_arr m ρ c 4).trans (hE (V0 m ρ) c)

include hE hT in
/-- After the second region the transformed features are the launched features times the evolved weight. -/
theorem transformed (c : Dev nD) :
    W2 m ρ c (Proc.devRef .tc main_v1)
      = xw (F := Ideal) (m ((c : Thread nD τ).loc main_arg0))
          (val_main_v27 (F := Ideal) (m ((c : Thread nD τ).loc main_arg1)) (m ((c : Thread nD τ).loc main_arg2))
            (m ((c : Thread nD τ).loc main_arg4)) (m ((c : Thread nD τ).loc main_arg5))) := by
  refine (W2_arr m ρ c 2).trans ((hT (V1 m ρ) c).trans ?_)
  rw [features_kept m ρ c, weight_evolved m ρ hE c]

/-! ## Through the host operations -/

/-- The normalising factor the third stretch reads is the reference's, of the launched edge list. -/
theorem factor_eq (c : Dev nD) :
    W4 m ρ c (Proc.devRef .tc main_v18) = val_main_v44 (F := Ideal) (m ((c : Thread nD τ).loc main_arg9)) := by
  refine (Cert.HostChain.factor (W3 m ρ c)).trans ?_
  rw [show W3 m ρ c (Proc.devRef .tc main_v14) = _ from Cert.HostChain.positive (W2 m ρ c),
    show W3 m ρ c (Proc.devRef .tc main_v17) = _ from Cert.HostChain.invSqrt (W2 m ρ c),
    show W3 m ρ c (Proc.devRef .tc main_cst_3) = _ from Cert.HostChain.zeroScalar (W2 m ρ c),
    edges_kept m ρ c]
  rfl

include hE hT in
/-- The third region finds, as its features, the reference's aggregation of the launched features times the
    evolved weight along the launched edge list. -/
theorem aggregated (c : Dev nD) :
    V5 m ρ c main_v46
      = agg (F := Ideal) (xw (F := Ideal) (m ((c : Thread nD τ).loc main_arg0))
          (val_main_v27 (F := Ideal) (m ((c : Thread nD τ).loc main_arg1)) (m ((c : Thread nD τ).loc main_arg2))
            (m ((c : Thread nD τ).loc main_arg4)) (m ((c : Thread nD τ).loc main_arg5))))
          (m ((c : Thread nD τ).loc main_arg9)) := by
  have hs : W4 m ρ c (Proc.devRef .tc main_v5) = val_main_v31 (F := Ideal) (m ((c : Thread nD τ).loc main_arg9)) :=
    (Cert.HostChain.sources_kept1 (W3 m ρ c)).trans ((Cert.HostChain.sources (W2 m ρ c)).trans (by rw [edges_kept m ρ c]))
  have ht : W4 m ρ c (Proc.devRef .tc main_v8) = val_main_v34 (F := Ideal) (m ((c : Thread nD τ).loc main_arg9)) :=
    (Cert.HostChain.targets_kept1 (W3 m ρ c)).trans ((Cert.HostChain.targets (W2 m ρ c)).trans (by rw [edges_kept m ρ c]))
  have hy : W4 m ρ c (Proc.devRef .tc main_v1) = _ :=
    (Cert.HostChain.features_kept1 (W3 m ρ c)).trans ((Cert.HostChain.features_kept (W2 m ρ c)).trans (transformed m ρ hE hT c))
  refine (Cert.HostChain.aggregate (W4 m ρ c) (m ((c : Thread nD τ).loc main_arg9)) hs ht (factor_eq m ρ c)).trans ?_
  rw [hy]

/-- The third region finds the bias, the classifier weight and the classifier bias as launched. -/
theorem bias_kept (c : Dev nD) : V5 m ρ c main_arg6 = m ((c : Thread nD τ).loc main_arg6) :=
  ((W6_arr m ρ c 1).trans (((dat2 (V5 m ρ) c).arrAt_in 1 rfl _).trans (A_eq2 (V5 m ρ) c 1))).symm.trans (W6_main_arg6 m ρ c)
theorem classWeight_kept (c : Dev nD) : V5 m ρ c main_arg7 = m ((c : Thread nD τ).loc main_arg7) :=
  ((W6_arr m ρ c 2).trans (((dat2 (V5 m ρ) c).arrAt_in 2 rfl _).trans (A_eq2 (V5 m ρ) c 2))).symm.trans (W6_main_arg7 m ρ c)
theorem classBias_kept (c : Dev nD) : V5 m ρ c main_arg8 = m ((c : Thread nD τ).loc main_arg8) :=
  ((W6_arr m ρ c 3).trans (((dat2 (V5 m ρ) c).arrAt_in 3 rfl _).trans (A_eq2 (V5 m ρ) c 3))).symm.trans (W6_main_arg8 m ρ c)

/-! ## The result -/

include hE hT hC in
/-- The result array after the run: the head of the aggregation of the features times the evolved weight. -/
theorem result (c : Dev nD) :
    W6 m ρ c (Proc.devRef .tc main_v47)
      = head (F := Ideal)
          (agg (F := Ideal) (xw (F := Ideal) (m ((c : Thread nD τ).loc main_arg0))
            (val_main_v27 (F := Ideal) (m ((c : Thread nD τ).loc main_arg1)) (m ((c : Thread nD τ).loc main_arg2))
              (m ((c : Thread nD τ).loc main_arg4)) (m ((c : Thread nD τ).loc main_arg5))))
            (m ((c : Thread nD τ).loc main_arg9)))
          (m ((c : Thread nD τ).loc main_arg6)) (m ((c : Thread nD τ).loc main_arg7)) (m ((c : Thread nD τ).loc main_arg8)) := by
  refine (W6_arr m ρ c 4).trans ((hC (V5 m ρ) c).trans ?_)
  rw [aggregated m ρ hE hT c, bias_kept m ρ c, classWeight_kept m ρ c, classBias_kept m ρ c]

end Cert.KernelValue

end
-- ==== Proof.EvolveGates.lean ====
/-
  The gate pre-activations of the weight evolution, read index by index.

  The kernel forms them as a product of the current weights with the input-to-hidden matrix, contracted on the
  SECOND axis of both operands, plus the two bias vectors each spread along the rows. The reference transposes the
  input-to-hidden matrix first and contracts the weights' second axis with the transpose's first. Entry (r, c) of
  either is  ∑ k, W[r, k] · U[c, k] + b₁[c] + b₂[c],  the additions in the same order.
-/
import proofs.«134047_j48996986912815_1_alg».proof.Proof.RefRead
import proofs.«134047_j48996986912815_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.Evolve

open Cert.KernelIdeal
open Cert.ReferenceIdeal.ReadP (lidx_main_v1 ridx_main_v1 idx_main_v0 idx_main_v2 idx_main_v3 idx_main_v5 idx_main_v6)

/-! ## The operand indices of the kernel's product -/

/-- The left operand's row is the entry's row. -/
theorem lhs_gates_0 (i : S128x512.Idx) (q : dot_S128x128_S512x128_S128x512_1_1_0_0_n_n.contr.Idx) :
    (dot_S128x128_S512x128_S128x512_1_1_0_0_n_n.lhsIdx i q 0).val = (i 0).val := by
  unfold DotDims.lhsIdx
  rw [dif_neg (show ¬(0 : Fin S128x128.rank) ∈ dot_S128x128_S512x128_S128x512_1_1_0_0_n_n.lhsBatch by decide), dif_pos (show (0 : Fin S128x128.rank) ∈ dot_S128x128_S512x128_S128x512_1_1_0_0_n_n.lhsNonContracting by decide)]
  rfl

/-- The left operand's column is the summation index. -/
theorem lhs_gates_1 (i : S128x512.Idx) (q : dot_S128x128_S512x128_S128x512_1_1_0_0_n_n.contr.Idx) :
    (dot_S128x128_S512x128_S128x512_1_1_0_0_n_n.lhsIdx i q 1).val = (q ⟨0, by decide⟩).val :=
  dot_S128x128_S512x128_S128x512_1_1_0_0_n_n.lhsIdx_val_of_single rfl i q

/-- The right operand's row is the entry's column. -/
theorem rhs_gates_0 (i : S128x512.Idx) (q : dot_S128x128_S512x128_S128x512_1_1_0_0_n_n.contr.Idx) :
    (dot_S128x128_S512x128_S128x512_1_1_0_0_n_n.rhsIdx i q 0).val = (i 1).val := by
  unfold DotDims.rhsIdx
  rw [dif_neg (show ¬(0 : Fin S512x128.rank) ∈ dot_S128x128_S512x128_S128x512_1_1_0_0_n_n.rhsBatch by decide), dif_pos (show (0 : Fin S512x128.rank) ∈ dot_S128x128_S512x128_S128x512_1_1_0_0_n_n.rhsNonContracting by decide)]
  rfl

/-- The right operand's column is the summation index. -/
theorem rhs_gates_1 (i : S128x512.Idx) (q : dot_S128x128_S512x128_S128x512_1_1_0_0_n_n.contr.Idx) :
    (dot_S128x128_S512x128_S128x512_1_1_0_0_n_n.rhsIdx i q 1).val = (q ⟨0, by decide⟩).val :=
  dot_S128x128_S512x128_S128x512_1_1_0_0_n_n.rhsIdx_val_of_single rfl i q

/-! ## The product at an entry -/

/-- The kernel's product into the zero accumulator, at an entry: the sum over the summation index of the weights at
    (the entry's row, the summation index) times the input-to-hidden matrix at (the entry's column, the summation
    index), the latter spelt as the reference's transposed read. -/
theorem product_apply (w0 : FVec Ideal S128x128 .f32) (wih : FVec Ideal S512x128 .f32) (i : S128x512.Idx) :
    FloatOps.matmul dot_S128x128_S512x128_S128x512_1_1_0_0_n_n (some .fp32) w0 wih (constant S128x512 .f32 0x00000000#32) i
      = ∑ k : Fin 128, w0 (lidx_main_v1 i k) * wih (idx_main_v0 (ridx_main_v1 i k)) := by
  rw [Ideal.matmul_constant_zero_apply, ← Equiv.sum_comp (ValueIdx.contrEquiv1 dot_S128x128_S512x128_S128x512_1_1_0_0_n_n 128 rfl rfl).symm]
  refine Finset.sum_congr rfl fun k _ => ?_
  have hk := ValueIdx.contrEquiv1_symm_val dot_S128x128_S512x128_S128x512_1_1_0_0_n_n 128 rfl rfl k
  have el : dot_S128x128_S512x128_S128x512_1_1_0_0_n_n.lhsIdx i ((ValueIdx.contrEquiv1 dot_S128x128_S512x128_S128x512_1_1_0_0_n_n 128 rfl rfl).symm k) = lidx_main_v1 i k := funext fun a => Fin.ext (by
    match a with
    | ⟨0, _⟩ => exact lhs_gates_0 _ _
    | ⟨1, _⟩ => exact (lhs_gates_1 _ _).trans hk)
  have er : dot_S128x128_S512x128_S128x512_1_1_0_0_n_n.rhsIdx i ((ValueIdx.contrEquiv1 dot_S128x128_S512x128_S128x512_1_1_0_0_n_n 128 rfl rfl).symm k) = idx_main_v0 (ridx_main_v1 i k) := funext fun a => Fin.ext (by
    match a with
    | ⟨0, _⟩ => exact rhs_gates_0 _ _
    | ⟨1, _⟩ => exact (rhs_gates_1 _ _).trans hk)
  rw [el, er]

/-! ## A bias spread along the rows -/

/-- A length-512 vector viewed as one row and repeated down the 128 rows reads, at an entry, the vector at the
    entry's column. -/
theorem bias_row_apply (b : FVec Ideal S512 .f32) (h1 : S512.ShapeCasts S1x512) (h2 : S1x512.Broadcasts S128x512)
    (i : S128x512.Idx) :
    broadcastTo S128x512 (shapeCast S1x512 b h1) h2 i = b (idx_main_v2 (idx_main_v3 i)) := by
  refine (broadcastTo_apply _ h2 i (idx_main_v3 i) (fun a => ?_)).trans ?_
  · match a with
    | ⟨0, _⟩ => show 0 = if (1 : Nat) = 1 then 0 else (i 0).val; rw [if_pos rfl]
    | ⟨1, _⟩ => show (i 1).val = if (512 : Nat) = 1 then 0 else (i 1).val; rw [if_neg (by decide)]
  · refine shapeCast_apply b h1 (idx_main_v3 i) (idx_main_v2 (idx_main_v3 i)) ?_
    rw [Shape.rowMajor_val_one, Shape.rowMajor_val_two]
    show (i 1).val = 0 * 512 + (i 1).val
    omega

end Cert.Evolve

end
-- ==== Proof.EvolveMath.lean ====
/-
  The weight evolution at an entry: the kernel's arithmetic and the reference's are one function.

  Both take the gate pre-activations G (a 128 × 512 array), cut four column bands of width 128 out of it (input,
  forget, cell, output; the forget band is unused), and return
      σ(output) · tanh (σ(input) · tanh (cell)),      σ(x) = 1 / (1 + e^(−x)).
  The kernel applies the logistic function as one operation; the reference writes it out with a negation, an
  exponential, the constant one, an addition and a division. On the extended reals the logistic function is that
  expression by definition, and the constant's bit pattern is the number one.
-/
import proofs.«134047_j48996986912815_1_alg».proof.Proof.EvolveGates
import Idealize.ShloMosaic.Lib.IdealHost

noncomputable section

open Idealize.ShloMosaic Idealize.ShloMosaic.TcCoe Idealize.SL.Sem

namespace Cert.Evolve

open Cert.KernelIdeal

/-! ## The gate pre-activations as arrays -/

/-- The kernel's gate pre-activations are the reference's, entry by entry: the same sum of products and the same two
    bias reads, added in the same order. -/
theorem gates_eq (w0 : FVec Ideal S128x128 .f32) (wih : FVec Ideal S512x128 .f32) (bih bhh : FVec Ideal S512 .f32)
    (h1 : S512.ShapeCasts S1x512) (h2 : S1x512.Broadcasts S128x512) :
    addf (F := Ideal) (addf (F := Ideal) (matmul (F := Ideal) dot_S128x128_S512x128_S128x512_1_1_0_0_n_n (some .fp32) w0 wih (constant (F := Ideal) S128x512 .f32 0x00000000#32))
        (broadcastTo S128x512 (shapeCast S1x512 bih h1) h2))
      (broadcastTo S128x512 (shapeCast S1x512 bhh h1) h2)
      = Cert.ReferenceIdeal.ReadP.val_main_v7 (F := Ideal) w0 wih bih bhh := by
  funext j
  rw [Cert.ReferenceIdeal.ReadP.val_main_v7_apply, Cert.ReferenceIdeal.ReadP.val_main_v4_apply,
    Cert.ReferenceIdeal.ReadP.val_main_v1_apply, Cert.ReferenceIdeal.ReadP.val_main_v3_apply,
    Cert.ReferenceIdeal.ReadP.val_main_v2_apply, Cert.ReferenceIdeal.ReadP.val_main_v6_apply,
    Cert.ReferenceIdeal.ReadP.val_main_v5_apply]
  simp only [Cert.ReferenceIdeal.ReadP.val_main_v0_apply]
  show (FloatOps.matmul dot_S128x128_S512x128_S128x512_1_1_0_0_n_n (some .fp32) w0 wih (constant S128x512 .f32 0x00000000#32) j
      + broadcastTo S128x512 (shapeCast S1x512 bih h1) h2 j) + broadcastTo S128x512 (shapeCast S1x512 bhh h1) h2 j = _
  rw [product_apply, bias_row_apply, bias_row_apply]
  rfl

/-! ## The logistic function written out -/

/-- One over one plus the exponential of the negation, in the reference's operations and with the reference's constant,
    is the logistic function. -/
theorem sigmoid_written_out (x : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf x)))
      = FloatOps.logistic x := by
  rw [Ideal.ofBits_def, Ideal.ofBits_one_f32]
  rfl

/-! ## From the gates to the evolved weights -/

/-- The evolved weights as a function of the gate pre-activations, in the kernel's operations. -/
def evolveOf (g : FVec Ideal S128x512 .f32) (h0 : S128x512.Slices ![0, 0] S128x128) (h256 : S128x512.Slices ![0, 256] S128x128)
    (h384 : S128x512.Slices ![0, 384] S128x128) : FVec Ideal S128x128 .f32 :=
  mulf (logistic (extractStridedSlice S128x128 ![0, 384] g h384))
    (tanh (mulf (logistic (extractStridedSlice S128x128 ![0, 0] g h0)) (tanh (extractStridedSlice S128x128 ![0, 256] g h256))))

/-- The kernel's payload is that function of its gate pre-activations. -/
theorem payload_shape (w0 : FVec Ideal S128x128 .f32) (wih : FVec Ideal S512x128 .f32) (bih bhh : FVec Ideal S512 .f32) :
    Gen.k0_pay1 (F := Ideal) w0 wih bih bhh
      = evolveOf (addf (F := Ideal) (addf (F := Ideal) (matmul (F := Ideal) dot_S128x128_S512x128_S128x512_1_1_0_0_n_n (some .fp32) w0 wih (constant (F := Ideal) S128x512 .f32 0x00000000#32))
            (broadcastTo S128x512 (shapeCast S1x512 bih Gen.shapeCasts_S512_S1x512) Gen.broadcasts_S1x512_S128x512))
          (broadcastTo S128x512 (shapeCast S1x512 bhh Gen.shapeCasts_S512_S1x512) Gen.broadcasts_S1x512_S128x512))
        Gen.slices_S128x512_o0_0_S128x128 Gen.slices_S128x512_o0_256_S128x128 Gen.slices_S128x512_o0_384_S128x128 := rfl

/-- The reference's result is the same function of ITS gate pre-activations: each written-out logistic folds to the
    one operation, and its hyperbolic tangent is the kernel's. -/
theorem reference_shape (w0 : FVec Ideal S128x128 .f32) (wih : FVec Ideal S512x128 .f32) (bih bhh : FVec Ideal S512 .f32)
    (h0 : S128x512.Slices ![0, 0] S128x128) (h256 : S128x512.Slices ![0, 256] S128x128) (h384 : S128x512.Slices ![0, 384] S128x128) :
    Cert.ReferenceIdeal.ReadP.val_main_v27 (F := Ideal) w0 wih bih bhh
      = evolveOf (Cert.ReferenceIdeal.ReadP.val_main_v7 (F := Ideal) w0 wih bih bhh) h0 h256 h384 := by
  funext i
  rw [Cert.ReferenceIdeal.ReadP.val_main_v27_apply, Cert.ReferenceIdeal.ReadP.val_main_v26_apply,
    Cert.ReferenceIdeal.ReadP.val_main_v25_apply, Cert.ReferenceIdeal.ReadP.val_main_v24_apply,
    Cert.ReferenceIdeal.ReadP.val_main_cst_2_apply, Cert.ReferenceIdeal.ReadP.val_main_v23_apply,
    Cert.ReferenceIdeal.ReadP.val_main_v22_apply, Cert.ReferenceIdeal.ReadP.val_main_cst_1_apply,
    Cert.ReferenceIdeal.ReadP.val_main_v21_apply, Cert.ReferenceIdeal.ReadP.val_main_v20_apply,
    Cert.ReferenceIdeal.ReadP.val_main_v19_apply, Cert.ReferenceIdeal.ReadP.val_main_v18_apply,
    Cert.ReferenceIdeal.ReadP.val_main_v17_apply, Cert.ReferenceIdeal.ReadP.val_main_v16_apply,
    Cert.ReferenceIdeal.ReadP.val_main_cst_0_apply, Cert.ReferenceIdeal.ReadP.val_main_v15_apply,
    Cert.ReferenceIdeal.ReadP.val_main_v14_apply, Cert.ReferenceIdeal.ReadP.val_main_cst_apply,
    Cert.ReferenceIdeal.ReadP.val_main_v13_apply, Cert.ReferenceIdeal.ReadP.val_main_v12_apply,
    sigmoid_written_out, sigmoid_written_out]
  rfl

/-! ## The two are one function -/

/-- The kernel's payload of the four arrays it loads is the reference's evolved weights of the same four arrays. -/
theorem payload_eq (w0 : FVec Ideal S128x128 .f32) (wih : FVec Ideal S512x128 .f32) (bih bhh : FVec Ideal S512 .f32) :
    Gen.k0_pay1 (F := Ideal) w0 wih bih bhh = Cert.ReferenceIdeal.ReadP.val_main_v27 (F := Ideal) w0 wih bih bhh := by
  rw [payload_shape, gates_eq, ← reference_shape]

end Cert.Evolve

end
-- ==== Proof.Evolve.lean ====
/-
  Region 0, the weight evolution, as one array equation.

  The grid has ONE point and every window's block is its whole array (each index map is constantly zero). So the one
  body run reads the four argument arrays whole, and what it writes back is the whole output array: the kernel's
  arithmetic of the four arrays, which is the reference's evolved weights of them.
-/
import proofs.«134047_j48996986912815_1_alg».proof.Proof.EvolveMath
import proofs.«134047_j48996986912815_1_alg».proof.Proof.Gen.KernelIdeal.Frame

noncomputable section

open Idealize.ShloMosaic Idealize.ShloMosaic.TcCoe Idealize.SL.Sem

namespace Cert.Evolve

open Cert.KernelIdeal

/-! ## The blocks are the arrays -/

theorem offsets2_zero : (![0, 0] : Fin 2 → Nat) = fun _ => 0 := funext fun a => by fin_cases a <;> rfl

theorem offsets1_zero : (![0] : Fin 1 → Nat) = fun _ => 0 := funext fun a => by fin_cases a <;> rfl

/-- Every window's block index is zero on every axis, at every point of the grid (decided over the grid). -/
theorem block_index_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0
    ∧ win0_4.index t (0 : Fin 2) = 0 ∧ win0_4.index t (1 : Fin 2) = 0 :=
  (by decide +kernel : ∀ t : Fin grid0.N, _)

section Blocks
variable (V : (c : Dev nD) → (b : Ref sig .tc) → Buf (Elt Ideal) ((c : Thread nD τ).loc b)) (c : Dev nD) (t : Fin cfg0.N)

/-- The weights' block is the weights. -/
theorem weights_block : (Gen.iblk0 (F := Ideal) V c 0 t : Vec Ideal S128x128 .f32) = V c main_arg1 := by
  obtain ⟨e0, e1, -⟩ := block_index_zero t
  funext y
  show V c main_arg1 (((cfg0.win 0).blk t).view.emb y) = V c main_arg1 y
  refine congrArg (V c main_arg1) (funext fun a => Fin.ext ?_)
  match a with
  | ⟨0, _⟩ => show win0_0.index t (0 : Fin 2) * 128 + 1 * (y 0).val = (y 0).val; omega
  | ⟨1, _⟩ => show win0_0.index t (1 : Fin 2) * 128 + 1 * (y 1).val = (y 1).val; omega

/-- The input-to-hidden matrix's block is the matrix. -/
theorem matrix_block : (Gen.iblk0 (F := Ideal) V c 1 t : Vec Ideal S512x128 .f32) = V c main_arg2 := by
  obtain ⟨-, -, e0, e1, -⟩ := block_index_zero t
  funext y
  show V c main_arg2 (((cfg0.win 1).blk t).view.emb y) = V c main_arg2 y
  refine congrArg (V c main_arg2) (funext fun a => Fin.ext ?_)
  match a with
  | ⟨0, _⟩ => show win0_1.index t (0 : Fin 2) * 512 + 1 * (y 0).val = (y 0).val; omega
  | ⟨1, _⟩ => show win0_1.index t (1 : Fin 2) * 128 + 1 * (y 1).val = (y 1).val; omega

/-- The first bias's block is the bias. -/
theorem bias1_block : (Gen.iblk0 (F := Ideal) V c 2 t : Vec Ideal S512 .f32) = V c main_arg4 := by
  obtain ⟨-, -, -, -, e0, -⟩ := block_index_zero t
  funext y
  show V c main_arg4 (((cfg0.win 2).blk t).view.emb y) = V c main_arg4 y
  refine congrArg (V c main_arg4) (funext fun a => Fin.ext ?_)
  match a with
  | ⟨0, _⟩ => show win0_2.index t (0 : Fin 1) * 512 + 1 * (y 0).val = (y 0).val; omega

/-- The second bias's block is the bias. -/
theorem bias2_block : (Gen.iblk0 (F := Ideal) V c 3 t : Vec Ideal S512 .f32) = V c main_arg5 := by
  obtain ⟨-, -, -, -, -, e0, -⟩ := block_index_zero t
  funext y
  show V c main_arg5 (((cfg0.win 3).blk t).view.emb y) = V c main_arg5 y
  refine congrArg (V c main_arg5) (funext fun a => Fin.ext ?_)
  match a with
  | ⟨0, _⟩ => show win0_3.index t (0 : Fin 1) * 512 + 1 * (y 0).val = (y 0).val; omega

/-! ## What the one point writes back -/

/-- The point's write-back is the output window's block of the reference's evolved weights of the four arrays. -/
theorem written_back :
    (Gen.dat0 (F := Ideal) V c).flushed 4 t = ((cfg0.win 4).blk t).view.read (Elt Ideal)
      (Cert.ReferenceIdeal.ReadP.val_main_v27 (F := Ideal) (V c main_arg1) (V c main_arg2) (V c main_arg4) (V c main_arg5)) := by
  show (cfg0.win 4).cut (grid0.coords t) ((Gen.dat0 V c).after 4 t) = _
  rw [Gen.after0_4]
  unfold Gen.out0_4
  rw [View.canon_unit_zero offsets2_zero]
  simp only [View.ld_unit_zero (S := S128x128) offsets2_zero, View.ld_unit_zero (S := S512x128) offsets2_zero,
    View.ld_unit_zero (S := S512) offsets1_zero]
  rw [weights_block, matrix_block, bias1_block, bias2_block, payload_eq]
  generalize Cert.ReferenceIdeal.ReadP.val_main_v27 (F := Ideal) (V c main_arg1) (V c main_arg2) (V c main_arg4) (V c main_arg5) = X
  obtain ⟨-, -, -, -, -, -, e0, e1⟩ := block_index_zero t
  funext j
  show X j = X (((cfg0.win 4).blk t).view.emb j)
  refine congrArg X (funext fun a => Fin.ext ?_)
  match a with
  | ⟨0, _⟩ => show (j 0).val = win0_4.index t (0 : Fin 2) * 128 + 1 * (j 0).val; omega
  | ⟨1, _⟩ => show (j 1).val = win0_4.index t (1 : Fin 2) * 128 + 1 * (j 1).val; omega

end Blocks

/-! ## The block covers the array -/

/-- An index of the output array is in the point's block iff each coordinate is in the block's range on its axis. -/
theorem mem_block (t : Fin cfg0.N) (i : S128x128.Idx) :
    i ∈ ((cfg0.win 4).blk t).view.set ↔ ∀ a : Fin 2, win0_4.index t a * S128x128.size a ≤ (i a).val ∧ (i a).val < win0_4.index t a * S128x128.size a + S128x128.size a := by
  show i ∈ ((View.whole main_v0).slice (win0_4.rect t)).set ↔ _
  rw [View.set_slice_whole, Rect.mem_set_unit]
  exact Iff.rfl

/-- Every index of the output array is in the one point's block, and that point writes back. -/
theorem covered (i : S128x128.Idx) :
    ∃ t : Fin cfg0.N, (cfg0.win 4).flush t = true ∧ i ∈ ((cfg0.win 4).blk t).view.set := by
  obtain ⟨-, -, -, -, -, -, e0, e1⟩ := block_index_zero Gen.t0_0
  have h0 : (i 0).val < 128 := (i 0).isLt
  have h1 : (i 1).val < 128 := (i 1).isLt
  refine ⟨Gen.t0_0, Gen.flush0_4 Gen.t0_0, ?_⟩
  rw [mem_block]
  intro a
  match a with
  | ⟨0, _⟩ => show win0_4.index Gen.t0_0 (0 : Fin 2) * 128 ≤ (i 0).val ∧ (i 0).val < win0_4.index Gen.t0_0 (0 : Fin 2) * 128 + 128; omega
  | ⟨1, _⟩ => show win0_4.index Gen.t0_0 (1 : Fin 2) * 128 ≤ (i 1).val ∧ (i 1).val < win0_4.index Gen.t0_0 (1 : Fin 2) * 128 + 128; omega

/-! ## The region -/

/-- REGION 0: after the weight evolution's pipeline the output array holds the reference's evolved weights of the
    four argument arrays as the region found them. -/
theorem region (V : (c : Dev nD) → (b : Ref sig .tc) → Buf (Elt Ideal) ((c : Thread nD τ).loc b)) (c : Dev nD) :
    (Gen.dat0 (F := Ideal) V c).arrAt 4 cfg0.N
      = Cert.ReferenceIdeal.ReadP.val_main_v27 (F := Ideal) (V c main_arg1) (V c main_arg2) (V c main_arg4) (V c main_arg5) :=
  (Gen.dat0 (F := Ideal) V c).arrAt_eq_of_cover 4 _ (fun t _ => written_back V c t) covered

end Cert.Evolve

end
-- ==== Proof.TransformKernelMath.lean ====
/-
  The transform body's arithmetic read at one element. Both operands are narrowed to bfloat16, which on the
  extended reals changes nothing; the weight is cast to its own shape; the product contracts axis 1 of the
  block of features with axis 0 of the weight into a zero accumulator. So row p, column f of what the body
  stores is the sum over k of xb[p, k] * w[k, f].
-/
import proofs.«134047_j48996986912815_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.Transform

open Cert.KernelIdeal Idealize.ShloMosaic Idealize.ShloMosaic.TcCoe Idealize.ShloMosaic.ValueIdx

/-- The left operand's row coordinate under the block product is the output's row. -/
theorem blockLhs_0 (j : S1000x128.Idx) (q : dot_S1000x128_S128x128_S1000x128_1_0_0_1_n_n.contr.Idx) :
    (dot_S1000x128_S128x128_S1000x128_1_0_0_1_n_n.lhsIdx j q 0).val = (j 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- The left operand's column coordinate is the contraction index. -/
theorem blockLhs_1 (j : S1000x128.Idx) (q : dot_S1000x128_S128x128_S1000x128_1_0_0_1_n_n.contr.Idx) :
    (dot_S1000x128_S128x128_S1000x128_1_0_0_1_n_n.lhsIdx j q 1).val = (q ⟨0, by decide⟩).val :=
  dot_S1000x128_S128x128_S1000x128_1_0_0_1_n_n.lhsIdx_val_of_single rfl j q
/-- The weight's row coordinate is the contraction index. -/
theorem blockRhs_0 (j : S1000x128.Idx) (q : dot_S1000x128_S128x128_S1000x128_1_0_0_1_n_n.contr.Idx) :
    (dot_S1000x128_S128x128_S1000x128_1_0_0_1_n_n.rhsIdx j q 0).val = (q ⟨0, by decide⟩).val :=
  dot_S1000x128_S128x128_S1000x128_1_0_0_1_n_n.rhsIdx_val_of_single rfl j q
/-- The weight's column coordinate is the output's column. -/
theorem blockRhs_1 (j : S1000x128.Idx) (q : dot_S1000x128_S128x128_S1000x128_1_0_0_1_n_n.contr.Idx) :
    (dot_S1000x128_S128x128_S1000x128_1_0_0_1_n_n.rhsIdx j q 1).val = (j 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The block product into the zero accumulator at row `p`, column `f`: the sum over `k` of `a[p, k] * b[k, f]`. -/
theorem blockProduct_apply (a : FVec Ideal S1000x128 .bf16) (b : FVec Ideal S128x128 .bf16) (p : Fin 1000) (f : Fin 128) :
    FloatOps.matmul dot_S1000x128_S128x128_S1000x128_1_0_0_1_n_n none a b (constant (F := Ideal) S1000x128 .f32 0x00000000#32) (ix2 p f)
      = ∑ k : Fin 128, a (ix2 p k) * b (ix2 k f) := by
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p f) ((contrEquiv1 dot_S1000x128_S128x128_S1000x128_1_0_0_1_n_n 128 rfl rfl).symm k) = ix2 p k := funext fun d => Fin.ext (by
    match d with
    | ⟨0, _⟩ => exact blockLhs_0 _ _
    | ⟨1, _⟩ => exact (blockLhs_1 _ _).trans hk)
  have er : dot_S1000x128_S128x128_S1000x128_1_0_0_1_n_n.rhsIdx (ix2 p f) ((contrEquiv1 dot_S1000x128_S128x128_S1000x128_1_0_0_1_n_n 128 rfl rfl).symm k) = ix2 k f := funext fun d => Fin.ext (by
    match d with
    | ⟨0, _⟩ => exact (blockRhs_0 _ _).trans hk
    | ⟨1, _⟩ => exact blockRhs_1 _ _)
  rw [el, er]

/-- What the body stores, at row `p`, column `f` of its block: the narrowing and the cast to the same shape are
    the identity, so it is the sum over `k` of `xb[p, k] * w[k, f]`. -/
theorem payload_apply (xb : Vec Ideal S1000x128 .f32) (w : Vec Ideal S128x128 .f32) (p : Fin 1000) (f : Fin 128) :
    Gen.k1_pay1 (F := Ideal) xb w (ix2 p f) = ∑ k : Fin 128, xb (ix2 p k) * w (ix2 k f) := by
  unfold Gen.k1_pay1
  refine (blockProduct_apply _ _ p f).trans ?_
  rw [shapeCast_self]
  rfl

end Cert.Transform

end
-- ==== Proof.TransformRefMath.lean ====
/-
  The reference's first stage read at one element: the features times the weight, contracting axis 1 of the
  features with axis 0 of the weight. Row n, column f is the sum over k of x[n, k] * w[k, f].
-/
import proofs.«134047_j48996986912815_1_alg».proof.Proof.RefShape

noncomputable section

namespace Cert.Transform

open Cert.ReferenceIdeal Idealize.ShloMosaic Idealize.ShloMosaic.TcCoe Idealize.ShloMosaic.ValueIdx

/-- The reference's product at row `n`, column `f`: the sum over `k` of `x[n, k] * w[k, f]`. -/
theorem xw_apply (x : (⟨S50000x128, .f32⟩ : BufTy).Contents (Elt Ideal)) (w : (⟨S128x128, .f32⟩ : BufTy).Contents (Elt Ideal))
    (n : Fin 50000) (f : Fin 128) :
    Cert.RefShape.xw (F := Ideal) x w (ix2 n f) = ∑ k : Fin 128, x (ix2 n k) * w (ix2 k f) := by
  unfold Cert.RefShape.xw
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 n f) ((contrEquiv1 dot_S50000x128_S128x128_S50000x128_1_0_0_1_n_n 128 rfl rfl).symm k) = ix2 n k := funext fun d => Fin.ext (by
    match d with
    | ⟨0, _⟩ => exact ReadP.lhs_main_v60_0 _ _
    | ⟨1, _⟩ => exact (ReadP.lhs_main_v60_1 _ _).trans hk)
  have er : dot_S50000x128_S128x128_S50000x128_1_0_0_1_n_n.rhsIdx (ix2 n f) ((contrEquiv1 dot_S50000x128_S128x128_S50000x128_1_0_0_1_n_n 128 rfl rfl).symm k) = ix2 k f := funext fun d => Fin.ext (by
    match d with
    | ⟨0, _⟩ => exact (ReadP.rhs_main_v60_0 _ _).trans hk
    | ⟨1, _⟩ => exact ReadP.rhs_main_v60_1 _ _)
  rw [el, er]

end Cert.Transform

end
-- ==== Proof.Transform.lean ====
/-
  Region 1, the features times the evolved weight. The grid has 50 points; point t holds rows 1000·t … 1000·t+999
  of the features and of the output, and the whole 128 × 128 weight. What point t writes back is block t of the
  reference's product: row p, column f of the block is the sum over k of x[1000·t + p, k] · w[k, f], which is the
  reference's product at row 1000·t + p. The 50 blocks cover the 50000 rows, so the output array ends holding the
  reference's product.
-/
import proofs.«134047_j48996986912815_1_alg».proof.Proof.TransformKernelMath
import proofs.«134047_j48996986912815_1_alg».proof.Proof.TransformRefMath
import proofs.«134047_j48996986912815_1_alg».proof.Proof.Gen.KernelIdeal.Frame

noncomputable section
open Idealize.ShloMosaic Idealize.ShloMosaic.TcCoe Idealize.SL.Sem

namespace Cert.Transform
open Cert.KernelIdeal Idealize.ShloMosaic.ValueIdx

/-- The body's accesses start at the origin of their buffers. -/
theorem origin : (![0, 0] : Fin 2 → Nat) = fun _ => 0 := funext fun a => by fin_cases a <;> rfl

/-- The block indices at point `t`: the features' and the output's blocks are the `t`-th along the rows and the only one
    along the columns; the weight's block is its only one. -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One element of the body's result against the reference's product: if row `p` of the block of features is row `n` of
    the features and column `f` of the weight's block is column `f` of the weight, then row `p`, column `f` of what the
    body stores is the reference's product at row `n`, column `f`. -/
theorem element (x : (⟨S50000x128, .f32⟩ : BufTy).Contents (Elt Ideal)) (w : (⟨S128x128, .f32⟩ : BufTy).Contents (Elt Ideal))
    (xb : Vec Ideal S1000x128 .f32) (wb : Vec Ideal S128x128 .f32) (p : Fin 1000) (f : Fin 128) (n : Fin 50000)
    (hx : ∀ k : Fin 128, xb (ix2 p k) = x (ix2 n k)) (hw : ∀ k : Fin 128, wb (ix2 k f) = w (ix2 k f)) :
    Gen.k1_pay1 (F := Ideal) xb wb (ix2 p f) = Cert.RefShape.xw (F := Ideal) x w (ix2 n f) := by
  rw [payload_apply, xw_apply]
  exact Finset.sum_congr rfl fun k _ => by rw [hx k, hw k]

/-- What point `t` writes back is block `t` of the reference's product of the arrays the region finds. -/
theorem flushed_eq (V : (c : Dev nD) → (b : Ref sig .tc) → Buf (Elt Ideal) ((c : Thread nD τ).loc b)) (c : Dev nD) (t : Fin cfg1.N) :
    (Gen.dat1 (F := Ideal) V c).flushed 2 t
      = ((cfg1.win 2).blk t).view.read (Elt Ideal) (Cert.RefShape.xw (F := Ideal) (V c main_arg0) (V c main_v0)) := by
  show (cfg1.win 2).cut (grid1.coords t) ((Gen.dat1 (F := Ideal) V c).after 2 t) = _
  rw [Gen.after1_2]
  unfold Gen.out1_2
  rw [View.canon_unit_zero origin]
  simp only [View.ld_unit_zero (S := S1000x128) origin, View.ld_unit_zero (S := S128x128) origin]
  obtain ⟨e0, e1, e2, e3, e4, e5⟩ := blockIndex t
  have ht : t.val < 50 := Nat.lt_of_lt_of_eq t.isLt Gen.N_1
  funext j
  obtain ⟨p, f, rfl⟩ : ∃ (p : Fin 1000) (f : Fin 128), j = ix2 p f := ⟨j 0, j 1, eq_ix2 j⟩
  have hp : p.val < 1000 := p.isLt
  refine (element (V c main_arg0) (V c main_v0) (Gen.iblk1 V c 0 t) (Gen.iblk1 V c 1 t) p f ⟨t.val * 1000 + p.val, by omega⟩ ?_ ?_).trans ?_
  · intro k
    show V c main_arg0 (((cfg1.win 0).blk t).view.emb (ix2 p k)) = V c main_arg0 (ix2 ⟨t.val * 1000 + p.val, by omega⟩ k)
    refine congrArg (V c main_arg0) (funext fun a => Fin.ext ?_)
    match a with
    | ⟨0, _⟩ => show win1_0.index t (0 : Fin 2) * 1000 + 1 * p.val = t.val * 1000 + p.val; omega
    | ⟨1, _⟩ => show win1_0.index t (1 : Fin 2) * 128 + 1 * k.val = k.val; omega
  · intro k
    show V c main_v0 (((cfg1.win 1).blk t).view.emb (ix2 k f)) = V c main_v0 (ix2 k f)
    refine congrArg (V c main_v0) (funext fun a => Fin.ext ?_)
    match a with
    | ⟨0, _⟩ => show win1_1.index t (0 : Fin 2) * 128 + 1 * k.val = k.val; omega
    | ⟨1, _⟩ => show win1_1.index t (1 : Fin 2) * 128 + 1 * f.val = f.val; omega
  · show _ = Cert.RefShape.xw (F := Ideal) (V c main_arg0) (V c main_v0) (((cfg1.win 2).blk t).view.emb (ix2 p f))
    refine congrArg (Cert.RefShape.xw (F := Ideal) (V c main_arg0) (V c main_v0)) (funext fun a => Fin.ext ?_)
    match a with
    | ⟨0, _⟩ => show t.val * 1000 + p.val = win1_2.index t (0 : Fin 2) * 1000 + 1 * p.val; omega
    | ⟨1, _⟩ => show f.val = win1_2.index t (1 : Fin 2) * 128 + 1 * f.val; omega

/-- An index of the output array is in point `t`'s block iff each coordinate is in the block's range on its axis. -/
theorem mem_block (t : Fin cfg1.N) (i : S50000x128.Idx) :
    i ∈ ((cfg1.win 2).blk t).view.set ↔ ∀ a : Fin 2, win1_2.index t a * S1000x128.size a ≤ (i a).val ∧ (i a).val < win1_2.index t a * S1000x128.size a + S1000x128.size a := by
  show i ∈ ((View.whole main_v1).slice (win1_2.rect t)).set ↔ _
  rw [View.set_slice_whole, Rect.mem_set_unit]
  exact Iff.rfl

/-- Every index of the output array is in the block of the point its row divided by 1000 names. -/
theorem covered (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 1000 :=
    ⟨⟨(i 0).val / 1000, by rw [show cfg1.N = 50 from Gen.N_1]; omega⟩, rfl⟩
  obtain ⟨-, -, -, -, e4, e5⟩ := blockIndex t
  refine ⟨t, Gen.flush1_2 t, ?_⟩
  rw [mem_block]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 128 ≤ (i 1).val ∧ (i 1).val < win1_2.index t (1 : Fin 2) * 128 + 128; omega

/-- REGION 1: the output array ends holding the reference's product of the features with the weight. -/
theorem region (V : (c : Dev nD) → (b : Ref sig .tc) → Buf (Elt Ideal) ((c : Thread nD τ).loc b)) (c : Dev nD) :
    (Gen.dat1 (F := Ideal) V c).arrAt 2 cfg1.N = Cert.RefShape.xw (F := Ideal) (V c main_arg0) (V c main_v0) :=
  (Gen.dat1 (F := Ideal) V c).arrAt_eq_of_cover 2 _ (fun t _ => flushed_eq V c t) covered

end Cert.Transform
end
-- ==== Proof.ClassifyMath.lean ====
/-
  The head of the network, read one entry at a time. Row `n` of the aggregated features gets the bias added
  along its 128 columns and is clamped at zero from below; class `q`'s score is the sum over the columns of
  the clamped entry times the classifier weight `Wc[q, k]`, plus the classifier bias `bc[q]`. The kernel's
  body computes this on a block of 1000 rows, contracting the clamped block with `Wc` along `Wc`'s second
  axis; the reference computes it on all rows at once, contracting with the transpose of `Wc` along the
  transpose's first axis. Both are the same sum, term by term, in the same order of additions.
-/
import proofs.«134047_j48996986912815_1_alg».proof.Proof.RefShape
import proofs.«134047_j48996986912815_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.Classify

open Cert.KernelIdeal

/-- Class `q`'s score of one node, from the node's row of aggregated features: the bias is added column by
    column, the sum is clamped at zero from below, multiplied by the classifier weight of the class and summed
    over the columns; the classifier bias of the class is added last. The zero is kept as the word it is
    written with on both sides. -/
def score (row : Fin 128 → Ideal .f32) (b : Vec Ideal S128 .f32) (wc : Vec Ideal S2x128 .f32) (bc : Vec Ideal S2 .f32)
    (q : Fin 2) : Ideal .f32 :=
  (∑ k : Fin 128, max (row k + b (ix1 k)) (Ideal.ofBits .f32 0x00000000#32) * wc (ix2 q k)) + bc (ix1 q)

/-! ## The kernel's layout operations at an index -/

/-- A vector of 128 entries viewed as one row and repeated down 1000 rows: entry `(p, k)` is entry `k`. -/
theorem row128_apply (b : Vec Ideal S128 .f32) (h1 : S128.ShapeCasts S1x128) (h2 : S1x128.Broadcasts S1000x128)
    (p : Fin 1000) (k : Fin 128) :
    broadcastTo S1000x128 (shapeCast S1x128 b h1) h2 (ix2 p k) = b (ix1 k) := by
  rw [broadcastTo_apply _ h2 (ix2 p k) (ix2 (0 : Fin 1) k) (fun a => by
    match a with
    | ⟨0, _⟩ => rfl
    | ⟨1, _⟩ => rfl)]
  exact (shapeCast_addUnit_apply ![128] b h1 (ix2 (0 : Fin 1) k)).trans
    (congrArg b (funext fun a => by match a with | ⟨0, _⟩ => rfl))

/-- A vector of 2 entries viewed as one row and repeated down 1000 rows: entry `(p, q)` is entry `q`. -/
theorem row2_apply (bc : Vec Ideal S2 .f32) (h1 : S2.ShapeCasts S1x2) (h2 : S1x2.Broadcasts S1000x2)
    (p : Fin 1000) (q : Fin 2) :
    broadcastTo S1000x2 (shapeCast S1x2 bc h1) h2 (ix2 p q) = bc (ix1 q) := by
  rw [broadcastTo_apply _ h2 (ix2 p q) (ix2 (0 : Fin 1) q) (fun a => by
    match a with
    | ⟨0, _⟩ => rfl
    | ⟨1, _⟩ => rfl)]
  exact (shapeCast_addUnit_apply ![2] bc h1 (ix2 (0 : Fin 1) q)).trans
    (congrArg bc (funext fun a => by match a with | ⟨0, _⟩ => rfl))

/-! ## The kernel's contraction at an index -/

/-- The left operand is read at the output's row … -/
theorem lhs_scores_0 (i : S1000x2.Idx) (q : dot_S1000x128_S2x128_S1000x2_1_1_0_0_n_n.contr.Idx) :
    (dot_S1000x128_S2x128_S1000x2_1_1_0_0_n_n.lhsIdx i q 0).val = (i 0).val := by
  unfold DotDims.lhsIdx
  rw [dif_neg (show ¬(0 : Fin S1000x128.rank) ∈ dot_S1000x128_S2x128_S1000x2_1_1_0_0_n_n.lhsBatch by decide),
    dif_pos (show (0 : Fin S1000x128.rank) ∈ dot_S1000x128_S2x128_S1000x2_1_1_0_0_n_n.lhsNonContracting by decide)]
  rfl
/-- … and at the contraction index along its columns; -/
theorem lhs_scores_1 (i : S1000x2.Idx) (q : dot_S1000x128_S2x128_S1000x2_1_1_0_0_n_n.contr.Idx) :
    (dot_S1000x128_S2x128_S1000x2_1_1_0_0_n_n.lhsIdx i q 1).val = (q ⟨0, by decide⟩).val :=
  dot_S1000x128_S2x128_S1000x2_1_1_0_0_n_n.lhsIdx_val_of_single rfl i q
/-- the right operand at the output's column, which is its row, … -/
theorem rhs_scores_0 (i : S1000x2.Idx) (q : dot_S1000x128_S2x128_S1000x2_1_1_0_0_n_n.contr.Idx) :
    (dot_S1000x128_S2x128_S1000x2_1_1_0_0_n_n.rhsIdx i q 0).val = (i 1).val := by
  unfold DotDims.rhsIdx
  rw [dif_neg (show ¬(0 : Fin S2x128.rank) ∈ dot_S1000x128_S2x128_S1000x2_1_1_0_0_n_n.rhsBatch by decide),
    dif_pos (show (0 : Fin S2x128.rank) ∈ dot_S1000x128_S2x128_S1000x2_1_1_0_0_n_n.rhsNonContracting by decide)]
  rfl
/-- … and at the contraction index along its columns. -/
theorem rhs_scores_1 (i : S1000x2.Idx) (q : dot_S1000x128_S2x128_S1000x2_1_1_0_0_n_n.contr.Idx) :
    (dot_S1000x128_S2x128_S1000x2_1_1_0_0_n_n.rhsIdx i q 1).val = (q ⟨0, by decide⟩).val :=
  dot_S1000x128_S2x128_S1000x2_1_1_0_0_n_n.rhsIdx_val_of_single rfl i q

/-- The block's product into the zero accumulator: entry `(p, q)` is the sum over the 128 columns of the left
    operand's `(p, k)` times the right operand's `(q, k)`. -/
theorem scores_apply (x : FVec Ideal S1000x128 .bf16) (w : FVec Ideal S2x128 .bf16) (p : Fin 1000) (q : Fin 2) :
    matmul dot_S1000x128_S2x128_S1000x2_1_1_0_0_n_n none x w (constant (F := Ideal) S1000x2 .f32 0x00000000#32) (ix2 p q)
      = ∑ k : Fin 128, x (ix2 p k) * w (ix2 q k) := by
  simp only [matmul]
  rw [Ideal.matmul_constant_zero_apply,
    ← Equiv.sum_comp (contrEquiv1 dot_S1000x128_S2x128_S1000x2_1_1_0_0_n_n 128 rfl rfl).symm]
  refine Finset.sum_congr rfl fun k _ => ?_
  have hk := contrEquiv1_symm_val dot_S1000x128_S2x128_S1000x2_1_1_0_0_n_n 128 rfl rfl k
  have el : dot_S1000x128_S2x128_S1000x2_1_1_0_0_n_n.lhsIdx (ix2 p q)
      ((contrEquiv1 dot_S1000x128_S2x128_S1000x2_1_1_0_0_n_n 128 rfl rfl).symm k) = ix2 p k :=
    funext fun a => Fin.ext (by
      match a with
      | ⟨0, _⟩ => exact lhs_scores_0 _ _
      | ⟨1, _⟩ => exact (lhs_scores_1 _ _).trans hk)
  have er : dot_S1000x128_S2x128_S1000x2_1_1_0_0_n_n.rhsIdx (ix2 p q)
      ((contrEquiv1 dot_S1000x128_S2x128_S1000x2_1_1_0_0_n_n 128 rfl rfl).symm k) = ix2 q k :=
    funext fun a => Fin.ext (by
      match a with
      | ⟨0, _⟩ => exact rhs_scores_0 _ _
      | ⟨1, _⟩ => exact (rhs_scores_1 _ _).trans hk)
  rw [el, er]

/-! ## The kernel's body at an index -/

/-- The body's result on a block of 1000 rows, at row `p` and class `q`, is the score of the block's row `p`. -/
theorem body_apply (hb : Vec Ideal S1000x128 .f32) (b : Vec Ideal S128 .f32) (wc : Vec Ideal S2x128 .f32)
    (bc : Vec Ideal S2 .f32) (p : Fin 1000) (q : Fin 2) :
    Gen.k2_pay1 (F := Ideal) hb b wc bc (ix2 p q) = score (fun k => hb (ix2 p k)) b wc bc q := by
  unfold Gen.k2_pay1 score
  rw [addf_apply, scores_apply, row2_apply]
  refine congrArg (· + bc (ix1 q)) (Finset.sum_congr rfl fun k _ => ?_)
  rw [truncf_apply, truncf_apply, maximumf_apply, addf_apply, shapeCast_self, row128_apply, broadcast_apply]
  rfl

/-! ## The reference's head at an index -/

/-- The reference's product of the clamped features with the transposed classifier weight: entry `(n, q)` is
    the sum over the 128 columns of the left operand's `(n, k)` times the right operand's `(k, q)`. -/
theorem refScores_apply (y0 : FVec Ideal Cert.ReferenceIdeal.S50000x128 .f32) (y1 : FVec Ideal Cert.ReferenceIdeal.S128x2 .f32)
    (n : Fin 50000) (q : Fin 2) :
    Host.dotGeneral Cert.ReferenceIdeal.dot_S50000x128_S128x2_S50000x2_1_0_0_1_n_n none y0 y1 (ix2 n q)
      = ∑ k : Fin 128, y0 (ix2 n k) * y1 (ix2 k q) := by
  simp only [Host.dotGeneral]
  rw [Ideal.dotGeneral_apply,
    ← Equiv.sum_comp (contrEquiv1 Cert.ReferenceIdeal.dot_S50000x128_S128x2_S50000x2_1_0_0_1_n_n 128 rfl rfl).symm]
  refine Finset.sum_congr rfl fun k _ => ?_
  have hk := contrEquiv1_symm_val Cert.ReferenceIdeal.dot_S50000x128_S128x2_S50000x2_1_0_0_1_n_n 128 rfl rfl k
  have el : Cert.ReferenceIdeal.dot_S50000x128_S128x2_S50000x2_1_0_0_1_n_n.lhsIdx (ix2 n q)
      ((contrEquiv1 Cert.ReferenceIdeal.dot_S50000x128_S128x2_S50000x2_1_0_0_1_n_n 128 rfl rfl).symm k) = ix2 n k :=
    funext fun a => Fin.ext (by
      match a with
      | ⟨0, _⟩ => exact Cert.ReferenceIdeal.ReadP.lhs_main_v79_0 _ _
      | ⟨1, _⟩ => exact (Cert.ReferenceIdeal.ReadP.lhs_main_v79_1 _ _).trans hk)
  have er : Cert.ReferenceIdeal.dot_S50000x128_S128x2_S50000x2_1_0_0_1_n_n.rhsIdx (ix2 n q)
      ((contrEquiv1 Cert.ReferenceIdeal.dot_S50000x128_S128x2_S50000x2_1_0_0_1_n_n 128 rfl rfl).symm k) = ix2 k q :=
    funext fun a => Fin.ext (by
      match a with
      | ⟨0, _⟩ => exact (Cert.ReferenceIdeal.ReadP.rhs_main_v79_0 _ _).trans hk
      | ⟨1, _⟩ => exact Cert.ReferenceIdeal.ReadP.rhs_main_v79_1 _ _)
  rw [el, er]

open Cert.ReferenceIdeal.ReadP in
/-- The reference's head at row `n` and class `q` is the score of row `n` of the aggregated features: the bias
    and the zero are broadcasts read at their one entry, the classifier weight is read through its transpose. -/
theorem head_apply (h : (⟨Cert.ReferenceIdeal.S50000x128, .f32⟩ : BufTy).Contents (Elt Ideal))
    (x6 : (⟨Cert.ReferenceIdeal.S128, .f32⟩ : BufTy).Contents (Elt Ideal))
    (x7 : (⟨Cert.ReferenceIdeal.S2x128, .f32⟩ : BufTy).Contents (Elt Ideal))
    (x8 : (⟨Cert.ReferenceIdeal.S2, .f32⟩ : BufTy).Contents (Elt Ideal)) (n : Fin 50000) (q : Fin 2) :
    Cert.RefShape.head (F := Ideal) h x6 x7 x8 (ix2 n q) = score (fun k => h (ix2 n k)) x6 x7 x8 q := by
  unfold Cert.RefShape.head score
  rw [addf_apply, refScores_apply, val_main_v81_apply, val_main_v80_apply]
  have e3 : idx_main_v80 (idx_main_v81 (ix2 n q)) = ix1 q := funext fun a => by match a with | ⟨0, _⟩ => rfl
  rw [e3]
  refine congrArg (· + x8 (ix1 q)) (Finset.sum_congr rfl fun k _ => ?_)
  rw [maximumf_apply, addf_apply, val_main_v75_apply, val_main_v74_apply, val_main_call1_v0_apply,
    val_main_call1_cst_apply, val_main_v78_apply]
  have e1 : idx_main_v74 (idx_main_v75 (ix2 n k)) = ix1 k := funext fun a => by match a with | ⟨0, _⟩ => rfl
  have e2 : idx_main_v78 (ix2 k q) = ix2 q k := funext fun a => by
    match a with
    | ⟨0, _⟩ => rfl
    | ⟨1, _⟩ => rfl
  rw [e1, e2]
  rfl

/-! ## A block of 1000 rows against the whole array -/

/-- If a block holds rows `1000·t … 1000·t + 999` of the aggregated features, and the bias, the classifier
    weight and the classifier bias are the whole arrays, then the body's result at the block's row `j 0` and
    class `j 1` is the reference's head at row `1000·t + j 0` and the same class. -/
theorem block_eq_head (hb : Vec Ideal S1000x128 .f32) (b : Vec Ideal S128 .f32) (wc : Vec Ideal S2x128 .f32)
    (bc : Vec Ideal S2 .f32)
    (h : (⟨Cert.ReferenceIdeal.S50000x128, .f32⟩ : BufTy).Contents (Elt Ideal))
    (x6 : (⟨Cert.ReferenceIdeal.S128, .f32⟩ : BufTy).Contents (Elt Ideal))
    (x7 : (⟨Cert.ReferenceIdeal.S2x128, .f32⟩ : BufTy).Contents (Elt Ideal))
    (x8 : (⟨Cert.ReferenceIdeal.S2, .f32⟩ : BufTy).Contents (Elt Ideal))
    (t : Nat) (ht : t < 50)
    (hrows : ∀ (p : Fin 1000) (k : Fin 128), hb (ix2 p k) = h (ix2 (⟨1000 * t + p.val, by omega⟩ : Fin 50000) k))
    (h6 : b = x6) (h7 : wc = x7) (h8 : bc = x8) (j : S1000x2.Idx) :
    Gen.k2_pay1 (F := Ideal) hb b wc bc j
      = Cert.RefShape.head (F := Ideal) h x6 x7 x8
          (ix2 (⟨1000 * t + (j 0).val, by have := idx2_lt0 j; omega⟩ : Fin 50000) (j 1)) := by
  subst h6 h7 h8
  obtain ⟨p, q, rfl⟩ : ∃ (p : Fin 1000) (q : Fin 2), j = ix2 p q := ⟨j 0, j 1, eq_ix2 j⟩
  rw [body_apply]
  exact (congrArg (fun r => score r b wc bc q) (funext fun k => hrows p k)).trans
    (head_apply h b wc bc ⟨1000 * t + p.val, by omega⟩ q).symm

end Cert.Classify

end
-- ==== Proof.Classify.lean ====
/-
  Region 2 of the kernel program (the head: bias, rectifier, class scores) writes the reference's head of the
  aggregated features into its output array. The grid has 50 points; point `t` holds rows `1000·t … 1000·t + 999`
  of the aggregated features and of the output, and the whole bias, classifier weight and classifier bias. What
  point `t` writes back is block `t` of the head of the region's entry arrays, and the 50 blocks cover the
  output array: row `r` lies in the block of point `r / 1000`.
-/
import proofs.«134047_j48996986912815_1_alg».proof.Proof.ClassifyMath
import proofs.«134047_j48996986912815_1_alg».proof.Proof.Gen.KernelIdeal.Frame

set_option maxRecDepth 16384

noncomputable section

open Idealize.ShloMosaic Idealize.ShloMosaic.TcCoe Idealize.SL.Sem Idealize.ShloMosaic.ValueIdx

namespace Cert.Classify

open Cert.KernelIdeal

/-- The body's loads and its store start at the origin of their buffers. -/
theorem origin2 : (![0, 0] : Fin 2 → Nat) = fun _ => 0 := funext fun a => by fin_cases a <;> rfl
theorem origin1 : (![0] : Fin 1 → Nat) = fun _ => 0 := funext fun a => by fin_cases a <;> rfl

/-- The index maps over the grid: the aggregated features' and the output's block is the point's number along
    the rows and 0 along the columns; the three small arrays' block index is 0 everywhere. -/
theorem block_indices : ∀ t : Fin cfg2.N,
    win2_0.index t (0 : Fin 2) = t.val ∧ win2_0.index t (1 : Fin 2) = 0
    ∧ win2_4.index t (0 : Fin 2) = t.val ∧ win2_4.index t (1 : Fin 2) = 0
    ∧ win2_1.index t (0 : Fin 1) = 0
    ∧ win2_2.index t (0 : Fin 2) = 0 ∧ win2_2.index t (1 : Fin 2) = 0
    ∧ win2_3.index t (0 : Fin 1) = 0 :=
  (by decide +kernel : ∀ t : Fin grid2.N, _)

/-- The region's grid has 50 points. -/
theorem points : cfg2.N = 50 := Gen.N_2

variable (V : (c : Dev nD) → (b : Ref sig .tc) → Buf (Elt Ideal) ((c : Thread nD τ).loc b))

/-- The output block's place in the output array: block row `j 0` of point `t` is array row `1000·t + j 0`. -/
theorem out_place (t : Fin cfg2.N) (j : S1000x2.Idx) :
    ((cfg2.win 4).blk t).view.emb j
      = ix2 (⟨1000 * t.val + (j 0).val, by have := idx2_lt0 j; have := Nat.lt_of_lt_of_eq t.isLt points; omega⟩ : Fin 50000) (j 1) := by
  obtain ⟨-, -, e2, e3, -⟩ := block_indices t
  funext a; apply Fin.ext
  match a with
  | ⟨0, _⟩ => show win2_4.index t (0 : Fin 2) * 1000 + 1 * (j 0).val = 1000 * t.val + (j 0).val; omega
  | ⟨1, _⟩ => show win2_4.index t (1 : Fin 2) * 2 + 1 * (j 1).val = (j 1).val; omega

/-- WHAT POINT `t` WRITES BACK is block `t` of the head of the arrays as the region finds them. -/
theorem flushed_eq_head (c : Dev nD) (t : Fin cfg2.N) :
    (Gen.dat2 (F := Ideal) V c).flushed 4 t
      = ((cfg2.win 4).blk t).view.read (Elt Ideal)
          (Cert.RefShape.head (F := Ideal) (V c main_v46) (V c main_arg6) (V c main_arg7) (V c main_arg8)) := by
  show (cfg2.win 4).cut (grid2.coords t) ((Gen.dat2 (F := Ideal) V c).after 4 t) = _
  rw [Gen.after2_4]
  unfold Gen.out2_4
  rw [View.canon_unit_zero origin2]
  simp only [View.ld_unit_zero (S := S1000x128) origin2, View.ld_unit_zero (S := S128) origin1,
    View.ld_unit_zero (S := S2x128) origin2, View.ld_unit_zero (S := S2) origin1]
  obtain ⟨e0, e1, -, -, e4, e5, e6, e7⟩ := block_indices t
  funext j
  show Gen.k2_pay1 (F := Ideal) (Gen.iblk2 V c 0 t) (Gen.iblk2 V c 1 t) (Gen.iblk2 V c 2 t) (Gen.iblk2 V c 3 t) j
    = Cert.RefShape.head (F := Ideal) (V c main_v46) (V c main_arg6) (V c main_arg7) (V c main_arg8)
        (((cfg2.win 4).blk t).view.emb j)
  rw [out_place]
  have ht : t.val < 50 := Nat.lt_of_lt_of_eq t.isLt points
  refine block_eq_head _ _ _ _ _ _ _ _ t.val ht ?_ ?_ ?_ ?_ j
  · -- the features' block: row `p` of the block is row `1000·t + p` of the array
    intro p k
    show V c main_v46 (((cfg2.win 0).blk t).view.emb (ix2 p k)) = V c main_v46 _
    refine congrArg (V c main_v46) (funext fun a => Fin.ext ?_)
    match a with
    | ⟨0, _⟩ => show win2_0.index t (0 : Fin 2) * 1000 + 1 * p.val = 1000 * t.val + p.val; omega
    | ⟨1, _⟩ => show win2_0.index t (1 : Fin 2) * 128 + 1 * k.val = k.val; omega
  · -- the bias's block is the whole bias
    funext y
    show V c main_arg6 (((cfg2.win 1).blk t).view.emb y) = V c main_arg6 y
    refine congrArg (V c main_arg6) (funext fun a => Fin.ext ?_)
    match a with
    | ⟨0, _⟩ => show win2_1.index t (0 : Fin 1) * 128 + 1 * (y 0).val = (y 0).val; omega
  · -- the classifier weight's block is the whole weight
    funext y
    show V c main_arg7 (((cfg2.win 2).blk t).view.emb y) = V c main_arg7 y
    refine congrArg (V c main_arg7) (funext fun a => Fin.ext ?_)
    match a with
    | ⟨0, _⟩ => show win2_2.index t (0 : Fin 2) * 2 + 1 * (y 0).val = (y 0).val; omega
    | ⟨1, _⟩ => show win2_2.index t (1 : Fin 2) * 128 + 1 * (y 1).val = (y 1).val; omega
  · -- the classifier bias's block is the whole bias
    funext y
    show V c main_arg8 (((cfg2.win 3).blk t).view.emb y) = V c main_arg8 y
    refine congrArg (V c main_arg8) (funext fun a => Fin.ext ?_)
    match a with
    | ⟨0, _⟩ => show win2_3.index t (0 : Fin 1) * 2 + 1 * (y 0).val = (y 0).val; omega

/-- An index of the output array is in point `t`'s block iff each coordinate is in the block's range on its axis. -/
theorem mem_out_block (t : Fin cfg2.N) (i : S50000x2.Idx) :
    i ∈ ((cfg2.win 4).blk t).view.set
      ↔ ∀ a : Fin 2, win2_4.index t a * S1000x2.size a ≤ (i a).val
          ∧ (i a).val < win2_4.index t a * S1000x2.size a + S1000x2.size a := by
  show i ∈ ((View.whole main_v47).slice (win2_4.rect t)).set ↔ _
  rw [View.set_slice_whole, Rect.mem_set_unit]
  exact Iff.rfl

/-- THE COVER: row `r` of the output array lies in the block of point `r / 1000`, which writes back. -/
theorem covered (i : S50000x2.Idx) :
    ∃ t : Fin cfg2.N, (cfg2.win 4).flush t = true ∧ i ∈ ((cfg2.win 4).blk t).view.set := by
  have hi0 : (i 0).val < 50000 := idx2_lt0 i
  have hi1 : (i 1).val < 2 := idx2_lt1 i
  let t : Fin cfg2.N := ⟨(i 0).val / 1000, Nat.lt_of_lt_of_eq (by omega) points.symm⟩
  have htv : t.val = (i 0).val / 1000 := rfl
  obtain ⟨-, -, e2, e3, -⟩ := block_indices t
  refine ⟨t, Gen.flush2_4 t, ?_⟩
  rw [mem_out_block]
  intro a
  match a with
  | ⟨0, _⟩ =>
    show win2_4.index t (0 : Fin 2) * 1000 ≤ (i 0).val ∧ (i 0).val < win2_4.index t (0 : Fin 2) * 1000 + 1000
    omega
  | ⟨1, _⟩ =>
    show win2_4.index t (1 : Fin 2) * 2 ≤ (i 1).val ∧ (i 1).val < win2_4.index t (1 : Fin 2) * 2 + 2
    omega

/-- REGION 2: after the region's 50 points the output array holds the reference's head of the aggregated
    features, the bias, the classifier weight and the classifier bias as the region finds them. -/
theorem region (V : (c : Dev nD) → (b : Ref sig .tc) → Buf (Elt Ideal) ((c : Thread nD τ).loc b)) (c : Dev nD) :
    (Gen.dat2 (F := Ideal) V c).arrAt 4 cfg2.N
      = Cert.RefShape.head (F := Ideal) (V c main_v46) (V c main_arg6) (V c main_arg7) (V c main_arg8) :=
  (Gen.dat2 (F := Ideal) V c).arrAt_eq_of_cover 4 _ (fun t _ => flushed_eq_head V c t) covered

end Cert.Classify

end
-- ==== Proof.lean ====
/-
  The certificate: a three-region graph-convolution kernel against its jnp reference, over the extended reals.

  The kernel evolves a 128 × 128 weight by one recurrent step (a matrix product with the input weights, two biases,
  sigmoid and hyperbolic-tangent gates) in a first region, multiplies the node features by it in a second region
  (fifty blocks of a thousand rows), aggregates the scaled neighbour rows on the host (degrees, inverse square
  roots, a gather, a scatter-add), and in a third region adds the bias, clamps at zero and multiplies by the
  classifier weight (again fifty blocks). The reference does all of it on the host. At the ideal values the two
  are one function: each region leaves, in its output array, the reference's stage of the region's entry arrays
  (the three region modules: the sigmoid written out on the host is the kernel's logistic, a block-by-block
  product is the whole product, and changes of float format are the identity); the host operations between the
  regions are the reference's own, on the same operands; so the kernel's result array and the reference's are the
  same composition, head (aggregation (features × evolved weight)), of arguments that agree.
  The three frames are the generated launch proofs (the reference's: its run with the result dropped); no
  rewriting rule was applied when the idealized kernel was printed, so that conjunct is trivial.
-/
import proofs.«134047_j48996986912815_1_alg».proof.Defs
import proofs.«134047_j48996986912815_1_alg».proof.Proof.Gen.Kernel
import proofs.«134047_j48996986912815_1_alg».proof.Proof.Gen.Kernel.Frame
import proofs.«134047_j48996986912815_1_alg».proof.Proof.Gen.KernelIdeal
import proofs.«134047_j48996986912815_1_alg».proof.Proof.Gen.KernelIdeal.Frame
import proofs.«134047_j48996986912815_1_alg».proof.Proof.Gen.ReferenceIdeal
import proofs.«134047_j48996986912815_1_alg».proof.Proof.Gen.Pre_finite_inputs
import proofs.«134047_j48996986912815_1_alg».proof.Proof.KernelValue
import proofs.«134047_j48996986912815_1_alg».proof.Proof.Evolve
import proofs.«134047_j48996986912815_1_alg».proof.Proof.Transform
import proofs.«134047_j48996986912815_1_alg».proof.Proof.Classify

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end with the head of the aggregation of the features times the evolved weight, of arguments that
    agree: the kernel by the walk back through its regions, the reference by reading its run as those three stages. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, (θ_run Cert.KernelIdeal.defs _ _).mono (fun r h c => ⟨(h c).1.trans
      (Cert.KernelValue.result m ρ Cert.Evolve.region Cert.Transform.region Cert.Classify.region c), (h c).2⟩)
    (Cert.KernelIdeal.GenRun.run_named m ρ), ?_⟩
  refine (θ_run Cert.ReferenceIdeal.defs _ _).mono (fun r h c => ⟨(h c).1.trans ?_, (h c).2⟩)
    (Cert.ReferenceIdeal.ValueP.run (F := Ideal) m' ρ')
  obtain ⟨h0, h1, h2, -, h4, h5, h6, h7, h8, h9⟩ := hagree c
  rw [Cert.ReferenceIdeal.ReadP.val_main_v82_eq, Cert.RefShape.ref_eq, h0, h1, h2, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
